-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S640x512 : S_.BroadcastsInDim S640x512 (![] : Fin 0 → Fin S640x512.rank)
  reducesTo_S640x512_S_d0_1 : S640x512.ReducesTo [0, 1] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x640 .f32) (main_arg5 : FVec F S1024 .f32) (main_v13 : IVec S_ 1) (main_v16 : IVec S640x512 1) : IVec S_ 1 :=
  let main_c_5 : IVec S_ 1 := constantI S_ 1 1#1
  let main_v17 : IVec S_ 1 := (fun x v => Host.reduce IntOp.andi x v reducesTo_S640x512_S_d0_1 h_S_) main_v16 main_c_5
  let main_v18 : IVec S_ 1 := andi main_v13 main_v17
  let main_v19 : FVec F S1024x640 .f32 := Host.absf main_arg4
  let main_cst_6 : FVec F S_ .f32 := constant S_ .f32 0x7F800000#32
  let main_v20 : FVec F S1024x640 .f32 := broadcastInDim S1024x640 ![] bcast_S_S1024x640 main_cst_6
  let main_v21 : IVec S1024x640 1 := cmpf .olt main_v19 main_v20
  let main_c_7 : IVec S_ 1 := constantI S_ 1 1#1
  let main_v22 : IVec S_ 1 := (fun x v => Host.reduce IntOp.andi x v reducesTo_S1024x640_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x512 .f32) (main_arg1 : FVec F S8x64x512 .f32) (main_arg2 : FVec F S640x512 .f32) (main_arg3 : FVec F S640x512 .f32) (main_arg4 : FVec F S1024x640 .f32) (main_arg5 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S640x512 .f32 := Host.absf main_arg2
  let main_cst_2 : FVec F S_ .f32 := constant S_ .f32 0x7F800000#32
  let main_v10 : FVec F S640x512 .f32 := broadcastInDim S640x512 ![] bcast_S_S640x512 main_cst_2
  let main_v11 : IVec S640x512 1 := cmpf .olt main_v9 main_v10
  let main_c_3 : IVec S_ 1 := constantI S_ 1 1#1
  let main_v12 : IVec S_ 1 := (fun x v => Host.reduce IntOp.andi x v reducesTo_S640x512_S_d0_1 h_S_) main_v11 main_c_3
  let main_v13 : IVec S_ 1 := andi main_v8 main_v12
  let main_v14 : FVec F S640x512 .f32 := Host.absf main_arg3
  let main_cst_4 : FVec F S_ .f32 := constant S_ .f32 0x7F800000#32
  let main_v15 : FVec F S640x512 .f32 := broadcastInDim S640x512 ![] bcast_S_S640x512 main_cst_4
  let main_v16 : IVec S640x512 1 := cmpf .olt main_v14 main_v15
  fn_part1 (F := F) main_arg4 main_arg5 main_v13 main_v16
-- ==== Kernel.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S1024 : Shape := ⟨1, ![1024]⟩
abbrev S8x256x64x1024 : Shape := ⟨4, ![8, 256, 64, 1024]⟩
abbrev S1x64x512 : Shape := ⟨3, ![1, 64, 512]⟩
abbrev S256x640 : Shape := ⟨2, ![256, 640]⟩
abbrev S256 : Shape := ⟨1, ![256]⟩
abbrev S1x64x64x256 : Shape := ⟨4, ![1, 64, 64, 256]⟩
abbrev S64x640 : Shape := ⟨2, ![64, 640]⟩
abbrev S4096x640 : Shape := ⟨2, ![4096, 640]⟩
abbrev S64x512 : Shape := ⟨2, ![64, 512]⟩
abbrev S64x1x640 : Shape := ⟨3, ![64, 1, 640]⟩
abbrev S1x64x640 : Shape := ⟨3, ![1, 64, 640]⟩
abbrev S64x64x640 : Shape := ⟨3, ![64, 64, 640]⟩
abbrev S4096x256 : Shape := ⟨2, ![4096, 256]⟩
abbrev S1x256 : Shape := ⟨2, ![1, 256]⟩
abbrev S64x64x256 : Shape := ⟨3, ![64, 64, 256]⟩

abbrev nBuf : Space → Nat
  | .hbm => 7
  | .vmem => 15
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S640x512, .f32⟩
  | .hbm, ⟨3, _⟩ => ⟨S640x512, .f32⟩
  | .hbm, ⟨4, _⟩ => ⟨S1024x640, .f32⟩
  | .hbm, ⟨5, _⟩ => ⟨S1024, .f32⟩
  | .hbm, ⟨6, _⟩ => ⟨S8x256x64x1024, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S640x512, .f32⟩
  | .local _ .vmem, ⟨5, _⟩ => ⟨S640x512, .f32⟩
  | .local _ .vmem, ⟨6, _⟩ => ⟨S256x640, .f32⟩
  | .local _ .vmem, ⟨7, _⟩ => ⟨S256x640, .f32⟩
  | .local _ .vmem, ⟨8, _⟩ => ⟨S256, .f32⟩
  | .local _ .vmem, ⟨9, _⟩ => ⟨S256, .f32⟩
  | .local _ .vmem, ⟨10, _⟩ => ⟨S1x64x64x256, .f32⟩
  | .local _ .vmem, ⟨11, _⟩ => ⟨S1x64x64x256, .f32⟩
  | .local _ .vmem, ⟨12, _⟩ => ⟨S64x640, .f32⟩
  | .local _ .vmem, ⟨13, _⟩ => ⟨S64x640, .f32⟩
  | .local _ .vmem, ⟨14, _⟩ => ⟨S4096x640, .bf16⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S640x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S640x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S640x512_S640x512_0_0 : ∀ a, (![0, 0] : Fin 2 → Nat) a + S640x512.size a ≤ S640x512.size a
  h_S640x512 : 0 < S640x512.numel
  inb_S64x640_S64x640_0_0 : ∀ a, (![0, 0] : Fin 2 → Nat) a + S64x640.size a ≤ S64x640.size a
  h_S64x640 : 0 < S64x640.numel
  shapeCasts_S64x640_S64x640 : S64x640.ShapeCasts S64x640
  shapeCasts_S64x640_S64x1x640 : S64x640.ShapeCasts S64x1x640
  shapeCasts_S64x640_S1x64x640 : S64x640.ShapeCasts S1x64x640
  broadcasts_S64x1x640_S64x64x640 : S64x1x640.Broadcasts S64x64x640
  broadcasts_S1x64x640_S64x64x640 : S1x64x640.Broadcasts S64x64x640
  shapeCasts_S64x64x640_S4096x640 : S64x64x640.ShapeCasts S4096x640
  inb_S4096x640_S4096x640_0_0 : ∀ a, (![0, 0] : Fin 2 → Nat) a + S4096x640.size a ≤ S4096x640.size a
  h_S4096x640 : 0 < S4096x640.numel
  shapeCasts_S4096x640_S4096x640 : S4096x640.ShapeCasts S4096x640
  packedbf16_S4096x640_S4096x640_0_0 : (Rect.unit (s := S4096x640) ![0, 0] S4096x640.size inb_S4096x640_S4096x640_0_0).PackedRows (EltTy.packing .bf16)
  inb_S256x640_S256x640_0_0 : ∀ a, (![0, 0] : Fin 2 → Nat) a + S256x640.size a ≤ S256x640.size a
  h_S256x640 : 0 < S256x640.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S64x64x256 : S4096x256.ShapeCasts S64x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  dot_S64x512_S640x512_S64x640_1_1_0_0_n_n_wf : DotDims.WF S64x512 S640x512 S64x640 [1] [1] [0] [0] [] []
  dot_S4096x640_S256x640_S4096x256_1_1_0_0_n_n_wf : DotDims.WF S4096x640 S256x640 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S8x256x512.size a
  hwx0_0 : ∀ i : grid0.Coords, EltTy.bits .f32 = 32 ∨ (Rect.block (s := S8x256x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x512.size a ≤ S640x512.size a
  hwx0_2 : ∀ i : grid0.Coords, EltTy.bits .f32 = 32 ∨ (Rect.block (s := S640x512) S640x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S640x512.size a
  hwx0_3 : ∀ i : grid0.Coords, EltTy.bits .f32 = 32 ∨ (Rect.block (s := S640x512) S640x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x640.size a ≤ S1024x640.size a
  hwx0_4 : ∀ i : grid0.Coords, EltTy.bits .f32 = 32 ∨ (Rect.block (s := S1024x640) S256x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S1024.size a
  hwx0_5 : ∀ i : grid0.Coords, EltTy.bits .f32 = 32 ∨ (Rect.block (s := S1024) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x256.size a ≤ S8x256x64x1024.size a
  hwx0_6 : ∀ i : grid0.Coords, EltTy.bits .f32 = 32 ∨ (Rect.block (s := S8x256x64x1024) S1x64x64x256.size (cc0_transform_6 i) (hinb0_6 i)).WholeWords (EltTy.packing .f32)

variable [Facts₀]

def dot_S64x512_S640x512_S64x640_1_1_0_0_n_n : DotDims S64x512 S640x512 S64x640 where
  lhsContracting := [1]
  rhsContracting := [1]
  lhsNonContracting := [0]
  rhsNonContracting := [0]
  lhsBatch := []
  rhsBatch := []
  wf := dot_S64x512_S640x512_S64x640_1_1_0_0_n_n_wf
def dot_S4096x640_S256x640_S4096x256_1_1_0_0_n_n : DotDims S4096x640 S256x640 S4096x256 where
  lhsContracting := [1]
  rhsContracting := [1]
  lhsNonContracting := [0]
  rhsNonContracting := [0]
  lhsBatch := []
  rhsBatch := []
  wf := dot_S4096x640_S256x640_S4096x256_1_1_0_0_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S640x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S1024 : Shape := ⟨1, ![1024]⟩
abbrev S8x256x640 : Shape := ⟨3, ![8, 256, 640]⟩
abbrev S8x64x640 : Shape := ⟨3, ![8, 64, 640]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S8x256x64x1024 : Shape := ⟨4, ![8, 256, 64, 1024]⟩
abbrev S1x1x1x1024 : Shape := ⟨4, ![1, 1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S640x512, .f32⟩
  | .hbm, ⟨3, _⟩ => ⟨S640x512, .f32⟩
  | .hbm, ⟨4, _⟩ => ⟨S1024x640, .f32⟩
  | .hbm, ⟨5, _⟩ => ⟨S1024, .f32⟩
  | .hbm, ⟨6, _⟩ => ⟨S8x256x640, .f32⟩
  | .hbm, ⟨7, _⟩ => ⟨S8x64x640, .f32⟩
  | .hbm, ⟨8, _⟩ => ⟨S8x256x1x640, .f32⟩
  | .hbm, ⟨9, _⟩ => ⟨S8x1x64x640, .f32⟩
  | .hbm, ⟨10, _⟩ => ⟨S8x256x64x640, .f32⟩
  | .hbm, ⟨11, _⟩ => ⟨S8x256x64x640, .f32⟩
  | .hbm, ⟨12, _⟩ => ⟨S8x256x64x640, .f32⟩
  | .hbm, ⟨13, _⟩ => ⟨S8x256x64x640, .f32⟩
  | .hbm, ⟨14, _⟩ => ⟨S8x256x64x1024, .f32⟩
  | .hbm, ⟨15, _⟩ => ⟨S1x1x1x1024, .f32⟩
  | .hbm, ⟨16, _⟩ => ⟨S8x256x64x1024, .f32⟩
  | .hbm, ⟨17, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S640x512_S8x256x640_2_1_01_0_n_n_wf : DotDims.WF S8x256x512 S640x512 S8x256x640 [2] [1] [0, 1] [0] [] []
  dot_S8x64x512_S640x512_S8x64x640_2_1_01_0_n_n_wf : DotDims.WF S8x64x512 S640x512 S8x64x640 [2] [1] [0, 1] [0] [] []
  dot_S8x256x64x640_S1024x640_S8x256x64x1024_3_1_012_0_n_n_wf : DotDims.WF S8x256x64x640 S1024x640 S8x256x64x1024 [3] [1] [0, 1, 2] [0] [] []

variable [Facts₀]

def dot_S8x256x512_S640x512_S8x256x640_2_1_01_0_n_n : DotDims S8x256x512 S640x512 S8x256x640 where
  lhsContracting := [2]
  rhsContracting := [1]
  lhsNonContracting := [0, 1]
  rhsNonContracting := [0]
  lhsBatch := []
  rhsBatch := []
  wf := dot_S8x256x512_S640x512_S8x256x640_2_1_01_0_n_n_wf
def dot_S8x64x512_S640x512_S8x64x640_2_1_01_0_n_n : DotDims S8x64x512 S640x512 S8x64x640 where
  lhsContracting := [2]
  rhsContracting := [1]
  lhsNonContracting := [0, 1]
  rhsNonContracting := [0]
  lhsBatch := []
  rhsBatch := []
  wf := dot_S8x64x512_S640x512_S8x64x640_2_1_01_0_n_n_wf
def dot_S8x256x64x640_S1024x640_S8x256x64x1024_3_1_012_0_n_n : DotDims S8x256x64x640 S1024x640 S8x256x64x1024 where
  lhsContracting := [3]
  rhsContracting := [1]
  lhsNonContracting := [0, 1, 2]
  rhsNonContracting := [0]
  lhsBatch := []
  rhsBatch := []
  wf := dot_S8x256x64x640_S1024x640_S8x256x64x1024_3_1_012_0_n_n_wf

class Facts : Prop extends Facts₀ where

variable [Facts]
-- ==== Proof.Spec.lean ====
/-
  The joint network's logits as one function of its six arrays.

  For a batch entry `b`, an encoder frame `t`, a predictor position `u` and a vocabulary entry `v`:
  the encoder frame and the predictor position are each projected to the joint width (a row of `enc` against the
  rows of `W_enc`, a row of `pred` against the rows of `W_pred`, both contracting the feature axis), the two
  projections are added and passed through `tanh`, and the result is projected to the vocabulary (against the rows of
  `W_out`, contracting the joint axis) with the bias added:

    logits[b, t, u, v] = (∑ j, tanh (∑ d, enc[b,t,d] · W_enc[j,d] + ∑ d, pred[b,u,d] · W_pred[j,d]) · W_out[v,j]) + b_out[v].

  Everything is read on the extended reals, where the sums have no order and the formats no rounding.
-/
import Idealize.ShloMosaic.PureOps.Ideal.Laws
import Idealize.ShloMosaic.Lib.ValueIdx

noncomputable section

namespace Cert.Joint

open Idealize.ShloMosaic Idealize.ShloMosaic.ValueIdx

/-- The literal shapes of the six arrays and of the result. -/
abbrev SEnc : Shape := ⟨3, ![8, 256, 512]⟩
abbrev SPred : Shape := ⟨3, ![8, 64, 512]⟩
abbrev SW : Shape := ⟨2, ![640, 512]⟩
abbrev SWout : Shape := ⟨2, ![1024, 640]⟩
abbrev SBias : Shape := ⟨1, ![1024]⟩
abbrev SOut : Shape := ⟨4, ![8, 256, 64, 1024]⟩

/-- A row of a rank-3 array against a row of a weight matrix, contracting the 512 features:
    `proj x w b r j = ∑ d, x[b, r, d] · w[j, d]`. Used for the encoder (256 rows a batch entry) and the predictor (64). -/
def proj {R : Nat} (x : FVec Ideal ⟨3, ![8, R, 512]⟩ .f32) (w : FVec Ideal SW .f32) (b : Fin 8) (r : Fin R) (j : Fin 640) : EReal :=
  ∑ d : Fin 512, x (ix3 b r d) * w (ix2 j d)

/-- The joint activation: `tanh` of the sum of the two projections. -/
def joint (enc : FVec Ideal SEnc .f32) (pred : FVec Ideal SPred .f32) (wenc wpred : FVec Ideal SW .f32)
    (b : Fin 8) (t : Fin 256) (u : Fin 64) (j : Fin 640) : EReal :=
  Ideal.tanh (proj enc wenc b t j + proj pred wpred b u j)

/-- The logits at coordinates. -/
def logitsAt (enc : FVec Ideal SEnc .f32) (pred : FVec Ideal SPred .f32) (wenc wpred : FVec Ideal SW .f32)
    (wout : FVec Ideal SWout .f32) (bout : FVec Ideal SBias .f32) (b : Fin 8) (t : Fin 256) (u : Fin 64) (v : Fin 1024) : EReal :=
  (∑ j : Fin 640, joint enc pred wenc wpred b t u j * wout (ix2 v j)) + bout (ix1 v)

/-- The logits as an array. -/
def logits (enc : FVec Ideal SEnc .f32) (pred : FVec Ideal SPred .f32) (wenc wpred : FVec Ideal SW .f32)
    (wout : FVec Ideal SWout .f32) (bout : FVec Ideal SBias .f32) : FVec Ideal SOut .f32 :=
  fun i => logitsAt enc pred wenc wpred wout bout (i 0) (i 1) (i 2) (i 3)

theorem logits_apply (enc : FVec Ideal SEnc .f32) (pred : FVec Ideal SPred .f32) (wenc wpred : FVec Ideal SW .f32)
    (wout : FVec Ideal SWout .f32) (bout : FVec Ideal SBias .f32) (b : Fin 8) (t : Fin 256) (u : Fin 64) (v : Fin 1024) :
    logits enc pred wenc wpred wout bout (ix4 b t u v) = logitsAt enc pred wenc wpred wout bout b t u v := rfl

end Cert.Joint

end
-- ==== Proof.RefLogits.lean ====
/-
  The reference computes the logits.

  The reference's twelve host operations are: the two projections (each a product contracting the feature axis,
  keeping batch and row), four broadcasts that line the projections up over (batch, frame, position, joint), their
  sum, `tanh`, the vocabulary projection contracting the joint axis, the bias broadcast over the leading axes, and
  the final sum. Reading the last stage at an index `(b, t, u, v)` and following each broadcast back to the operand
  index it reads gives exactly

    (∑ j, tanh (∑ d, enc[b,t,d] · W_enc[j,d] + ∑ d, pred[b,u,d] · W_pred[j,d]) · W_out[v,j]) + b_out[v].
-/
import proofs.«141540_j2044404433374_1_alg».proof.Proof.Gen.ReferenceIdeal.Read
import proofs.«141540_j2044404433374_1_alg».proof.Proof.Spec

noncomputable section

namespace Cert.ReferenceIdeal.RefLogits

open Cert.ReferenceIdeal Cert.ReferenceIdeal.Read Idealize.ShloMosaic Idealize.ShloMosaic.ValueIdx Cert.Joint

/-! ## Which operand index each stage reads, followed back through the broadcasts -/

/-- The encoder projection read under the vocabulary product: frame `(b, t)`, feature `d`. -/
theorem enc_row (i : S8x256x64x1024.Idx) (j : Fin 640) (d : Fin 512) :
    lidx_main_v0 (idx_main_v2 (idx_main_v4 (lidx_main_v8 i j))) d = ix3 (i 0) (i 1) d :=
  funext fun a => Fin.ext (by match a with | ⟨0, _⟩ => rfl | ⟨1, _⟩ => rfl | ⟨2, _⟩ => rfl)

/-- … against row `j` of the encoder weights. -/
theorem enc_weight (i : S8x256x64x1024.Idx) (j : Fin 640) (d : Fin 512) :
    ridx_main_v0 (idx_main_v2 (idx_main_v4 (lidx_main_v8 i j))) d = ix2 j d :=
  funext fun a => Fin.ext (by match a with | ⟨0, _⟩ => rfl | ⟨1, _⟩ => rfl)

/-- The predictor projection: position `(b, u)`, feature `d`. -/
theorem pred_row (i : S8x256x64x1024.Idx) (j : Fin 640) (d : Fin 512) :
    lidx_main_v1 (idx_main_v3 (idx_main_v5 (lidx_main_v8 i j))) d = ix3 (i 0) (i 2) d :=
  funext fun a => Fin.ext (by match a with | ⟨0, _⟩ => rfl | ⟨1, _⟩ => rfl | ⟨2, _⟩ => rfl)

/-- … against row `j` of the predictor weights. -/
theorem pred_weight (i : S8x256x64x1024.Idx) (j : Fin 640) (d : Fin 512) :
    ridx_main_v1 (idx_main_v3 (idx_main_v5 (lidx_main_v8 i j))) d = ix2 j d :=
  funext fun a => Fin.ext (by match a with | ⟨0, _⟩ => rfl | ⟨1, _⟩ => rfl)

/-- The vocabulary weights: row `v`, joint coordinate `j`. -/
theorem out_weight (i : S8x256x64x1024.Idx) (j : Fin 640) : ridx_main_v8 i j = ix2 (i 3) j :=
  funext fun a => Fin.ext (by match a with | ⟨0, _⟩ => rfl | ⟨1, _⟩ => rfl)

/-- The bias: entry `v`. -/
theorem bias_entry (i : S8x256x64x1024.Idx) : idx_main_v9 (idx_main_v10 i) = ix1 (i 3) :=
  funext fun a => Fin.ext (by match a with | ⟨0, _⟩ => rfl)

/-! ## The last stage is the logits -/

theorem result_eq (x0 : FVec Ideal SEnc .f32) (x1 : FVec Ideal SPred .f32) (x2 x3 : FVec Ideal SW .f32)
    (x4 : FVec Ideal SWout .f32) (x5 : FVec Ideal SBias .f32) :
    val_main_v11 (F := Ideal) x0 x1 x2 x3 x4 x5 = logits x0 x1 x2 x3 x4 x5 := by
  funext i
  rw [val_main_v11_apply, val_main_v8_apply, val_main_v10_apply, val_main_v9_apply]
  simp only [val_main_v7_apply, val_main_v6_apply, val_main_v4_apply, val_main_v2_apply, val_main_v0_apply,
    val_main_v5_apply, val_main_v3_apply, val_main_v1_apply, enc_row, enc_weight, pred_row, pred_weight, out_weight,
    bias_entry, Ideal.addf_def, Ideal.hostUnary_tanh_def]
  rfl

end Cert.ReferenceIdeal.RefLogits

end
-- ==== Proof.Pieces.lean ====
/-
  What one run of the body leaves behind, as values.

  The body runs in one of two ways. At the first vocabulary tile of a (batch, frame-tile) pair it recomputes the joint
  activations from the encoder block `x0`, the predictor block `x1` and the two weight matrices `x2`, `x3`, stores
  them in the carried scratch, reads them back and projects them; at the other vocabulary tiles it projects whatever
  the scratch already holds. In both, the output block is ONE store covering the block, and the scratch (when written)
  is ONE store covering it, so what each holds afterwards is that store's payload, every load reading a whole buffer:

  * first tile: the scratch ends at the activations of the blocks, the output at their projection;
  * other tiles: the scratch is untouched, the output is the projection of what the scratch held.

  Stated for every reading of the floats: nothing here looks inside the arithmetic.
-/
import proofs.«141540_j2044404433374_1_alg».proof.Proof.Gen.KernelIdeal.Frame
import Idealize.ShloMosaic.Lib.Pipeline.Value
import Idealize.ShloMosaic.Lib.Tactic

noncomputable section

namespace Cert.KernelIdeal.JointPieces

open Cert.KernelIdeal Cert.KernelIdeal.Gen Idealize.ShloMosaic Idealize.ShloMosaic.TcCoe Idealize.ShloMosaic.Tactic Idealize.SL.Sem

variable {F : FTy → Type} [FloatOps F]

/-- The all-zero offsets of a whole-buffer access, by rank. -/
theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- FIRST TILE, the scratch: it ends at the joint activations of the two blocks and the two weight matrices. -/
theorem scratch_first (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S640x512 .f32) (harg5 : arg5.IsWhole) (arg6 : Memref sig .tc .vmem S640x512 .f32) (harg6 : arg6.IsWhole) (arg7 : Memref sig .tc .vmem S256x640 .f32) (harg7 : arg7.IsWhole) (arg8 : Memref sig .tc .vmem S256 .f32) (harg8 : arg8.IsWhole) (arg9 : Memref sig .tc .vmem S1x64x64x256 .f32) (harg9 : arg9.IsWhole) (arg10 : Memref sig .tc .vmem S64x640 .f32) (harg10 : arg10.IsWhole) (arg11 : Memref sig .tc .vmem S64x640 .f32) (harg11 : arg11.IsWhole) (arg12 : Memref sig .tc .vmem S4096x640 .bf16) (harg12 : arg12.IsWhole) (hc0 : cond0_0 i) (x0 : Vec F S1x64x512 .f32) (x1 : Vec F S1x64x512 .f32) (x2 : Vec F S640x512 .f32) (x3 : Vec F S640x512 .f32) (x4 : Vec F S256x640 .f32) (x5 : Vec F S256 .f32) :
    sout0_A_2 c i arg3 harg3 arg4 harg4 arg5 harg5 arg6 harg6 arg7 harg7 arg8 harg8 arg9 harg9 arg10 harg10 arg11 harg11 arg12 harg12 hc0 x0 x1 x2 x3 x4 x5 = k0_pay5 x0 x2 x1 x3 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_unit_zero off2]
  simp only [View.readAt_eq_ld, harg3.read_unread, harg4.read_unread, harg5.read_unread, harg6.read_unread,
    View.ld_unit_zero (S := S1x64x512) off3, View.ld_unit_zero (S := S640x512) off2]

/-- FIRST TILE, the output block: the projection of those activations (read back from the scratch just stored)
    against the vocabulary tile's weights `x4`, plus its bias `x5`. -/
theorem out_first (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S640x512 .f32) (harg5 : arg5.IsWhole) (arg6 : Memref sig .tc .vmem S640x512 .f32) (harg6 : arg6.IsWhole) (arg7 : Memref sig .tc .vmem S256x640 .f32) (harg7 : arg7.IsWhole) (arg8 : Memref sig .tc .vmem S256 .f32) (harg8 : arg8.IsWhole) (arg9 : Memref sig .tc .vmem S1x64x64x256 .f32) (harg9 : arg9.IsWhole) (arg10 : Memref sig .tc .vmem S64x640 .f32) (harg10 : arg10.IsWhole) (arg11 : Memref sig .tc .vmem S64x640 .f32) (harg11 : arg11.IsWhole) (arg12 : Memref sig .tc .vmem S4096x640 .bf16) (harg12 : arg12.IsWhole) (hc0 : cond0_0 i) (x0 : Vec F S1x64x512 .f32) (x1 : Vec F S1x64x512 .f32) (x2 : Vec F S640x512 .f32) (x3 : Vec F S640x512 .f32) (x4 : Vec F S256x640 .f32) (x5 : Vec F S256 .f32) :
    out0_A_6 c i arg3 harg3 arg4 harg4 arg5 harg5 arg6 harg6 arg7 harg7 arg8 harg8 arg9 harg9 arg10 harg10 arg11 harg11 arg12 harg12 hc0 x0 x1 x2 x3 x4 x5 = k0_pay6 (k0_pay5 x0 x2 x1 x3) x4 x5 := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 hc0 x0 x1 x2 x3 x4 x5)]
  unfold kernelRun0_A
  dsimp only
  sl_unfold_words
  rw [View.canon_unit_zero off4]
  simp only [View.readAt_eq_ld, harg3.read_unread, harg4.read_unread, harg5.read_unread, harg6.read_unread,
    harg7.read_unread, harg8.read_unread, View.ld_unit_zero (S := S1x64x512) off3, View.ld_unit_zero (S := S640x512) off2,
    View.ld_unit_zero (S := S256x640) off2, View.ld_unit_zero (S := S256) off1,
    View.readCov_unit_zero (S := S4096x640) _ off2]

/-- OTHER TILES, the output block: the projection of what the scratch held (`xs2`) against the tile's weights, plus
    its bias. -/
theorem out_later (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S640x512 .f32) (harg5 : arg5.IsWhole) (arg6 : Memref sig .tc .vmem S640x512 .f32) (harg6 : arg6.IsWhole) (arg7 : Memref sig .tc .vmem S256x640 .f32) (harg7 : arg7.IsWhole) (arg8 : Memref sig .tc .vmem S256 .f32) (harg8 : arg8.IsWhole) (arg9 : Memref sig .tc .vmem S1x64x64x256 .f32) (harg9 : arg9.IsWhole) (arg10 : Memref sig .tc .vmem S64x640 .f32) (harg10 : arg10.IsWhole) (arg11 : Memref sig .tc .vmem S64x640 .f32) (harg11 : arg11.IsWhole) (arg12 : Memref sig .tc .vmem S4096x640 .bf16) (harg12 : arg12.IsWhole) (hc0 : ¬cond0_0 i) (x0 : Vec F S1x64x512 .f32) (x1 : Vec F S1x64x512 .f32) (x2 : Vec F S640x512 .f32) (x3 : Vec F S640x512 .f32) (x4 : Vec F S256x640 .f32) (x5 : Vec F S256 .f32) (xs2 : Vec F S4096x640 .bf16) :
    out0_B_6 c i arg3 harg3 arg4 harg4 arg5 harg5 arg6 harg6 arg7 harg7 arg8 harg8 arg9 harg9 arg10 harg10 arg11 harg11 arg12 harg12 hc0 x0 x1 x2 x3 x4 x5 xs2 = k0_pay6 xs2 x4 x5 := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 x0 x1 x2 x3 x4 x5 xs2)]
  unfold kernelRun0_B
  dsimp only
  sl_unfold_words
  rw [View.canon_unit_zero off4]
  simp only [View.readAt_eq_ld, harg7.read_unread, harg8.read_unread, harg12.read_unread,
    View.ld_unit_zero (S := S4096x640) off2, View.ld_unit_zero (S := S256x640) off2, View.ld_unit_zero (S := S256) off1]

/-- OTHER TILES, the scratch: untouched. -/
theorem scratch_later (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S640x512 .f32) (harg5 : arg5.IsWhole) (arg6 : Memref sig .tc .vmem S640x512 .f32) (harg6 : arg6.IsWhole) (arg7 : Memref sig .tc .vmem S256x640 .f32) (harg7 : arg7.IsWhole) (arg8 : Memref sig .tc .vmem S256 .f32) (harg8 : arg8.IsWhole) (arg9 : Memref sig .tc .vmem S1x64x64x256 .f32) (harg9 : arg9.IsWhole) (arg10 : Memref sig .tc .vmem S64x640 .f32) (harg10 : arg10.IsWhole) (arg11 : Memref sig .tc .vmem S64x640 .f32) (harg11 : arg11.IsWhole) (arg12 : Memref sig .tc .vmem S4096x640 .bf16) (harg12 : arg12.IsWhole) (hc0 : ¬cond0_0 i) (x0 : Vec F S1x64x512 .f32) (x1 : Vec F S1x64x512 .f32) (x2 : Vec F S640x512 .f32) (x3 : Vec F S640x512 .f32) (x4 : Vec F S256x640 .f32) (x5 : Vec F S256 .f32) (xs2 : Vec F S4096x640 .bf16) :
    sout0_B_2 c i arg3 harg3 arg4 harg4 arg5 harg5 arg6 harg6 arg7 harg7 arg8 harg8 arg9 harg9 arg10 harg10 arg11 harg11 arg12 harg12 hc0 x0 x1 x2 x3 x4 x5 xs2 = xs2 := rfl

end Cert.KernelIdeal.JointPieces

end
-- ==== Proof.Body.lean ====
/-
  The body's arithmetic read at coordinates, on the extended reals.

  The body has three products, each "rows against rows": an `M × K` array against an `N × K` array, contracting the
  second axis of both, into a zero accumulator. On the extended reals the entry `(p, q)` of such a product is
  `∑ k, lhs (p, k) · rhs (q, k)`, and a change of float format is the identity. So:

  * the projection of a `1 × 64 × 512` block `x` against the `640 × 512` weights `w` has entry `(p, q)` equal to
    `∑ d, x (0, p, d) · w (q, d)`;
  * the joint activations, stored as a `4096 × 640` array, have at row `r` and column `j` the value
    `tanh (f (r / 64, j) + g (r % 64, j))` of the two projections `f`, `g`: row `r` stands for the pair (frame
    `r / 64`, position `r % 64`);
  * the output block, `1 × 64 × 64 × 256`, has at `(0, p, u, v)` the value
    `(∑ j, comb (64 p + u, j) · w_out (v, j)) + bias v` of whatever `4096 × 640` array `comb` the scratch holds.
-/
import proofs.«141540_j2044404433374_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.JointBody

open Cert.KernelIdeal Cert.KernelIdeal.Gen Idealize.ShloMosaic Idealize.ShloMosaic.ValueIdx

/-! ## The two product shapes, read at an entry -/

theorem projDims_lhs0 (i : S64x640.Idx) (q : dot_S64x512_S640x512_S64x640_1_1_0_0_n_n.contr.Idx) :
    (dot_S64x512_S640x512_S64x640_1_1_0_0_n_n.lhsIdx i q 0).val = (i 0).val := by
  unfold DotDims.lhsIdx
  rw [dif_neg (show ¬(0 : Fin S64x512.rank) ∈ dot_S64x512_S640x512_S64x640_1_1_0_0_n_n.lhsBatch by decide), dif_pos (show (0 : Fin S64x512.rank) ∈ dot_S64x512_S640x512_S64x640_1_1_0_0_n_n.lhsNonContracting by decide)]
  rfl
theorem projDims_lhs1 (i : S64x640.Idx) (q : dot_S64x512_S640x512_S64x640_1_1_0_0_n_n.contr.Idx) :
    (dot_S64x512_S640x512_S64x640_1_1_0_0_n_n.lhsIdx i q 1).val = (q ⟨0, by decide⟩).val :=
  dot_S64x512_S640x512_S64x640_1_1_0_0_n_n.lhsIdx_val_of_single rfl i q
theorem projDims_rhs0 (i : S64x640.Idx) (q : dot_S64x512_S640x512_S64x640_1_1_0_0_n_n.contr.Idx) :
    (dot_S64x512_S640x512_S64x640_1_1_0_0_n_n.rhsIdx i q 0).val = (i 1).val := by
  unfold DotDims.rhsIdx
  rw [dif_neg (show ¬(0 : Fin S640x512.rank) ∈ dot_S64x512_S640x512_S64x640_1_1_0_0_n_n.rhsBatch by decide), dif_pos (show (0 : Fin S640x512.rank) ∈ dot_S64x512_S640x512_S64x640_1_1_0_0_n_n.rhsNonContracting by decide)]
  rfl
theorem projDims_rhs1 (i : S64x640.Idx) (q : dot_S64x512_S640x512_S64x640_1_1_0_0_n_n.contr.Idx) :
    (dot_S64x512_S640x512_S64x640_1_1_0_0_n_n.rhsIdx i q 1).val = (q ⟨0, by decide⟩).val :=
  dot_S64x512_S640x512_S64x640_1_1_0_0_n_n.rhsIdx_val_of_single rfl i q

/-- A 64 × 512 array against a 640 × 512 array, rows against rows, into zero: entry `(p, q)` is `∑ k, lhs (p, k) · rhs (q, k)`. -/
theorem projDims_zero_apply {φ₁ φ₂ : FTy} (lhs : FVec Ideal ⟨2, ![64, 512]⟩ φ₁) (rhs : FVec Ideal ⟨2, ![640, 512]⟩ φ₂) (p : Fin 64) (q : Fin 640) :
    FloatOps.matmul dot_S64x512_S640x512_S64x640_1_1_0_0_n_n none lhs rhs (constant ⟨2, ![64, 640]⟩ .f32 0x00000000#32) (ix2 p q)
      = ∑ k : Fin 512, lhs (ix2 p k) * rhs (ix2 q k) := by
  rw [Ideal.matmul_constant_zero_apply, ← Equiv.sum_comp (contrEquiv1 dot_S64x512_S640x512_S64x640_1_1_0_0_n_n 512 rfl rfl).symm]
  refine Finset.sum_congr rfl fun k _ => ?_
  have hk := contrEquiv1_symm_val dot_S64x512_S640x512_S64x640_1_1_0_0_n_n 512 rfl rfl k
  have el : dot_S64x512_S640x512_S64x640_1_1_0_0_n_n.lhsIdx (ix2 p q) ((contrEquiv1 dot_S64x512_S640x512_S64x640_1_1_0_0_n_n 512 rfl rfl).symm k) = ix2 p k := funext fun a => Fin.ext (by
    match a with
    | ⟨0, _⟩ => exact projDims_lhs0 _ _
    | ⟨1, _⟩ => exact (projDims_lhs1 _ _).trans hk)
  have er : dot_S64x512_S640x512_S64x640_1_1_0_0_n_n.rhsIdx (ix2 p q) ((contrEquiv1 dot_S64x512_S640x512_S64x640_1_1_0_0_n_n 512 rfl rfl).symm k) = ix2 q k := funext fun a => Fin.ext (by
    match a with
    | ⟨0, _⟩ => exact projDims_rhs0 _ _
    | ⟨1, _⟩ => exact (projDims_rhs1 _ _).trans hk)
  rw [el, er]

theorem vocabDims_lhs0 (i : S4096x256.Idx) (q : dot_S4096x640_S256x640_S4096x256_1_1_0_0_n_n.contr.Idx) :
    (dot_S4096x640_S256x640_S4096x256_1_1_0_0_n_n.lhsIdx i q 0).val = (i 0).val := by
  unfold DotDims.lhsIdx
  rw [dif_neg (show ¬(0 : Fin S4096x640.rank) ∈ dot_S4096x640_S256x640_S4096x256_1_1_0_0_n_n.lhsBatch by decide), dif_pos (show (0 : Fin S4096x640.rank) ∈ dot_S4096x640_S256x640_S4096x256_1_1_0_0_n_n.lhsNonContracting by decide)]
  rfl
theorem vocabDims_lhs1 (i : S4096x256.Idx) (q : dot_S4096x640_S256x640_S4096x256_1_1_0_0_n_n.contr.Idx) :
    (dot_S4096x640_S256x640_S4096x256_1_1_0_0_n_n.lhsIdx i q 1).val = (q ⟨0, by decide⟩).val :=
  dot_S4096x640_S256x640_S4096x256_1_1_0_0_n_n.lhsIdx_val_of_single rfl i q
theorem vocabDims_rhs0 (i : S4096x256.Idx) (q : dot_S4096x640_S256x640_S4096x256_1_1_0_0_n_n.contr.Idx) :
    (dot_S4096x640_S256x640_S4096x256_1_1_0_0_n_n.rhsIdx i q 0).val = (i 1).val := by
  unfold DotDims.rhsIdx
  rw [dif_neg (show ¬(0 : Fin S256x640.rank) ∈ dot_S4096x640_S256x640_S4096x256_1_1_0_0_n_n.rhsBatch by decide), dif_pos (show (0 : Fin S256x640.rank) ∈ dot_S4096x640_S256x640_S4096x256_1_1_0_0_n_n.rhsNonContracting by decide)]
  rfl
theorem vocabDims_rhs1 (i : S4096x256.Idx) (q : dot_S4096x640_S256x640_S4096x256_1_1_0_0_n_n.contr.Idx) :
    (dot_S4096x640_S256x640_S4096x256_1_1_0_0_n_n.rhsIdx i q 1).val = (q ⟨0, by decide⟩).val :=
  dot_S4096x640_S256x640_S4096x256_1_1_0_0_n_n.rhsIdx_val_of_single rfl i q

/-- A 4096 × 640 array against a 256 × 640 array, rows against rows, into zero: entry `(p, q)` is `∑ k, lhs (p, k) · rhs (q, k)`. -/
theorem vocabDims_zero_apply {φ₁ φ₂ : FTy} (lhs : FVec Ideal ⟨2, ![4096, 640]⟩ φ₁) (rhs : FVec Ideal ⟨2, ![256, 640]⟩ φ₂) (p : Fin 4096) (q : Fin 256) :
    FloatOps.matmul dot_S4096x640_S256x640_S4096x256_1_1_0_0_n_n none lhs rhs (constant ⟨2, ![4096, 256]⟩ .f32 0x00000000#32) (ix2 p q)
      = ∑ k : Fin 640, lhs (ix2 p k) * rhs (ix2 q k) := by
  rw [Ideal.matmul_constant_zero_apply, ← Equiv.sum_comp (contrEquiv1 dot_S4096x640_S256x640_S4096x256_1_1_0_0_n_n 640 rfl rfl).symm]
  refine Finset.sum_congr rfl fun k _ => ?_
  have hk := contrEquiv1_symm_val dot_S4096x640_S256x640_S4096x256_1_1_0_0_n_n 640 rfl rfl k
  have el : dot_S4096x640_S256x640_S4096x256_1_1_0_0_n_n.lhsIdx (ix2 p q) ((contrEquiv1 dot_S4096x640_S256x640_S4096x256_1_1_0_0_n_n 640 rfl rfl).symm k) = ix2 p k := funext fun a => Fin.ext (by
    match a with
    | ⟨0, _⟩ => exact vocabDims_lhs0 _ _
    | ⟨1, _⟩ => exact (vocabDims_lhs1 _ _).trans hk)
  have er : dot_S4096x640_S256x640_S4096x256_1_1_0_0_n_n.rhsIdx (ix2 p q) ((contrEquiv1 dot_S4096x640_S256x640_S4096x256_1_1_0_0_n_n 640 rfl rfl).symm k) = ix2 q k := funext fun a => Fin.ext (by
    match a with
    | ⟨0, _⟩ => exact vocabDims_rhs0 _ _
    | ⟨1, _⟩ => exact (vocabDims_rhs1 _ _).trans hk)
  rw [el, er]

/-! ## The projection of a block -/

/-- The projection of a `1 × 64 × 512` block against the weights, at row `p` and joint coordinate `q`. -/
theorem proj_apply (x : Vec Ideal S1x64x512 .f32) (w : Vec Ideal S640x512 .f32) (p : Fin 64) (q : Fin 640) :
    k0_pay1 (F := Ideal) x w (ix2 p q) = ∑ d : Fin 512, x (ix3 0 p d) * w (ix2 q d) := by
  unfold k0_pay1
  refine (projDims_zero_apply _ _ p q).trans ?_
  refine Finset.sum_congr rfl fun d _ => ?_
  rw [truncf_apply, truncf_apply]
  refine congrArg (· * w (ix2 q d)) ?_
  exact shapeCast_apply x shapeCasts_S1x64x512_S64x512 (ix2 p d) (ix3 0 p d) (by
    rw [Shape.rowMajor_val_three, Shape.rowMajor_val_two]
    show ((0 : Nat) * 64 + p.val) * 512 + d.val = p.val * 512 + d.val
    omega)

/-- The predictor's projection is the same function of its block and weights. -/
theorem proj_apply' (x : Vec Ideal S1x64x512 .f32) (w : Vec Ideal S640x512 .f32) (p : Fin 64) (q : Fin 640) :
    k0_pay3 (F := Ideal) x w (ix2 p q) = ∑ d : Fin 512, x (ix3 0 p d) * w (ix2 q d) :=
  proj_apply x w p q

/-! ## The joint activations -/

/-- Row `r` of the `4096 × 640` activations is the pair (frame `r / 64`, position `r % 64`). -/
theorem comb_apply (x0 : Vec Ideal S1x64x512 .f32) (x2 : Vec Ideal S640x512 .f32) (x1 : Vec Ideal S1x64x512 .f32) (x3 : Vec Ideal S640x512 .f32)
    (p u : Fin 64) (j : Fin 640) (r : Fin 4096) (hr : r.val = p.val * 64 + u.val) :
    k0_pay5 (F := Ideal) x0 x2 x1 x3 (ix2 r j)
      = Ideal.tanh (k0_pay1 (F := Ideal) x0 x2 (ix2 p j) + k0_pay3 (F := Ideal) x1 x3 (ix2 u j)) := by
  unfold k0_pay5
  rw [shapeCast_self, truncf_apply]
  rw [shapeCast_apply _ shapeCasts_S64x64x640_S4096x640 (ix2 r j) (ix3 p u j) (by
    rw [Shape.rowMajor_val_three, Shape.rowMajor_val_two]
    show (p.val * 64 + u.val) * 640 + j.val = r.val * 640 + j.val
    rw [hr])]
  show Ideal.tanh (_ + _) = _
  refine congrArg Ideal.tanh (congrArg₂ (· + ·) ?_ ?_)
  · rw [broadcastTo_apply _ broadcasts_S64x1x640_S64x64x640 (ix3 p u j) (ix3 p 0 j) (fun a => by
      match a with
      | ⟨0, _⟩ => show p.val = if (64 : Nat) = 1 then 0 else p.val; rw [if_neg (by decide)]
      | ⟨1, _⟩ => show 0 = if (1 : Nat) = 1 then 0 else u.val; rw [if_pos rfl]
      | ⟨2, _⟩ => show j.val = if (640 : Nat) = 1 then 0 else j.val; rw [if_neg (by decide)])]
    exact shapeCast_apply _ shapeCasts_S64x640_S64x1x640 (ix3 p 0 j) (ix2 p j) (by
      rw [Shape.rowMajor_val_three, Shape.rowMajor_val_two]
      show p.val * 640 + j.val = (p.val * 1 + 0) * 640 + j.val
      omega)
  · rw [broadcastTo_apply _ broadcasts_S1x64x640_S64x64x640 (ix3 p u j) (ix3 0 u j) (fun a => by
      match a with
      | ⟨0, _⟩ => show 0 = if (1 : Nat) = 1 then 0 else p.val; rw [if_pos rfl]
      | ⟨1, _⟩ => show u.val = if (64 : Nat) = 1 then 0 else u.val; rw [if_neg (by decide)]
      | ⟨2, _⟩ => show j.val = if (640 : Nat) = 1 then 0 else j.val; rw [if_neg (by decide)])]
    exact shapeCast_apply _ shapeCasts_S64x640_S1x64x640 (ix3 0 u j) (ix2 u j) (by
      rw [Shape.rowMajor_val_three, Shape.rowMajor_val_two]
      show u.val * 640 + j.val = (0 * 64 + u.val) * 640 + j.val
      omega)

/-! ## The output block -/

/-- The output block at `(0, p, u, v)`, over whatever activations `comb` the scratch holds. -/
theorem out_apply (comb : Vec Ideal S4096x640 .bf16) (w : Vec Ideal S256x640 .f32) (bias : Vec Ideal S256 .f32)
    (p u : Fin 64) (v : Fin 256) (r : Fin 4096) (hr : r.val = p.val * 64 + u.val) :
    k0_pay6 (F := Ideal) comb w bias (ix4 0 p u v)
      = (∑ j : Fin 640, comb (ix2 r j) * w (ix2 v j)) + bias (ix1 v) := by
  unfold k0_pay6
  rw [shapeCast_apply _ shapeCasts_S64x64x256_S1x64x64x256 (ix4 0 p u v) (ix3 p u v) (by
    rw [Shape.rowMajor_val_four, Shape.rowMajor_val_three]
    show (p.val * 64 + u.val) * 256 + v.val = (((0 : Nat) * 64 + p.val) * 64 + u.val) * 256 + v.val
    omega)]
  rw [shapeCast_apply _ shapeCasts_S4096x256_S64x64x256 (ix3 p u v) (ix2 r v) (by
    rw [Shape.rowMajor_val_three, Shape.rowMajor_val_two]
    show r.val * 256 + v.val = (p.val * 64 + u.val) * 256 + v.val
    rw [hr])]
  rw [addf_apply]
  refine congrArg₂ (· + ·) ?_ ?_
  · refine (vocabDims_zero_apply _ _ r v).trans ?_
    refine Finset.sum_congr rfl fun j _ => ?_
    rw [truncf_apply]
  · rw [broadcastTo_apply _ broadcasts_S1x256_S4096x256 (ix2 r v) (ix2 0 v) (fun a => by
      match a with
      | ⟨0, _⟩ => show 0 = if (1 : Nat) = 1 then 0 else r.val; rw [if_pos rfl]
      | ⟨1, _⟩ => show v.val = if (256 : Nat) = 1 then 0 else v.val; rw [if_neg (by decide)])]
    exact shapeCast_apply _ shapeCasts_S256_S1x256 (ix2 0 v) (ix1 v) (by
      rw [Shape.rowMajor_val_two, Shape.rowMajor_val_one]
      show v.val = 0 * 256 + v.val
      omega)

end Cert.KernelIdeal.JointBody

end
-- ==== Proof.Tiles.lean ====
/-
  The kernel's run, point by point.

  The grid has 8 · 4 · 4 = 128 points, the vocabulary tile innermost: point `n` works on batch entry `n / 16`, frame
  tile `(n / 4) % 4` (frames `64 s … 64 s + 63`) and vocabulary tile `n % 4` (entries `256 v … 256 v + 255`). Its
  encoder block is that batch entry's 64 frames, its predictor block that batch entry's 64 positions, the two
  projection weights are whole, and its vocabulary weights and bias are the tile's 256 rows and entries.

  The joint activations are computed at the first vocabulary tile (`n % 4 = 0`) and carried in a scratch through the
  other three. So after EVERY point the scratch holds the activations of the point's batch entry and frame tile — at a
  first tile because it was just computed from the point's blocks, at the others because the point before (same batch
  entry, same frame tile) left it so: an induction on the point. The output block of every point is then the projection
  of those activations to the point's vocabulary tile, which is the logits' block there.
-/
import proofs.«141540_j2044404433374_1_alg».proof.Proof.Gen.KernelIdeal.Value
import proofs.«141540_j2044404433374_1_alg».proof.Proof.Pieces
import proofs.«141540_j2044404433374_1_alg».proof.Proof.Body
import proofs.«141540_j2044404433374_1_alg».proof.Proof.Spec

noncomputable section

namespace Cert.KernelIdeal.JointTiles

open Cert.KernelIdeal Cert.KernelIdeal.Gen Idealize.ShloMosaic Idealize.ShloMosaic.TcCoe Idealize.SL.Sem
open Idealize.ShloMosaic.ValueIdx Cert.Joint Cert.KernelIdeal.JointBody Cert.KernelIdeal.JointPieces

variable (m : (ℓ : Loc nD τ sig) → Buf (Elt Ideal) ℓ)

/-! ## The arrays as the region finds them, and the windows' blocks, at their literal types -/

abbrev encA (c : Dev nD) : FVec Ideal SEnc .f32 := V m c main_arg0
abbrev predA (c : Dev nD) : FVec Ideal SPred .f32 := V m c main_arg1
abbrev wencA (c : Dev nD) : FVec Ideal SW .f32 := V m c main_arg2
abbrev wpredA (c : Dev nD) : FVec Ideal SW .f32 := V m c main_arg3
abbrev woutA (c : Dev nD) : FVec Ideal SWout .f32 := V m c main_arg4
abbrev boutA (c : Dev nD) : FVec Ideal SBias .f32 := V m c main_arg5

/-- The logits of the arrays as the region finds them. -/
abbrev result (c : Dev nD) : FVec Ideal SOut .f32 :=
  logits (encA m c) (predA m c) (wencA m c) (wpredA m c) (woutA m c) (boutA m c)

theorem nPoints : cfg0.N = 128 := N_0

/-- Where each window's block sits at point `t`, decided over the 128 points. -/
theorem where_ : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val % 4 ∧ win0_4.index t (1 : Fin 2) = 0
    ∧ win0_5.index t (0 : Fin 1) = t.val % 4
    ∧ win0_6.index t (0 : Fin 4) = t.val / 16 ∧ win0_6.index t (1 : Fin 4) = t.val / 4 % 4
    ∧ win0_6.index t (2 : Fin 4) = 0 ∧ win0_6.index t (3 : Fin 4) = t.val % 4 :=
  (by decide +kernel : ∀ t : Fin grid0.N, _)

/-- The encoder block at point `t`: frames `64 s + p` of batch entry `b`. -/
theorem enc_block (c : Dev nD) (t : Fin cfg0.N) (p : Fin 64) (d : Fin 512) (k : SEnc.Idx)
    (h0 : (k 0).val = t.val / 16) (h1 : (k 1).val = t.val / 4 % 4 * 64 + p.val) (h2 : (k 2).val = d.val) :
    (iblk m c 0 t : Vec Ideal S1x64x512 .f32) (ix3 0 p d) = encA m c k := by
  obtain ⟨e0, e1, e2, -⟩ := where_ t
  unfold iblk
  rw [View.read_apply]
  show encA m c _ = encA m c k
  refine congrArg (encA m c) (funext fun a => Fin.ext ?_)
  match a with
  | ⟨0, _⟩ => show win0_0.index t (0 : Fin 3) * 1 + 1 * 0 = (k 0).val; omega
  | ⟨1, _⟩ => show win0_0.index t (1 : Fin 3) * 64 + 1 * p.val = (k 1).val; omega
  | ⟨2, _⟩ => show win0_0.index t (2 : Fin 3) * 512 + 1 * d.val = (k 2).val; omega

/-- The predictor block at point `t`: all 64 positions of batch entry `b`. -/
theorem pred_block (c : Dev nD) (t : Fin cfg0.N) (u : Fin 64) (d : Fin 512) (k : SPred.Idx)
    (h0 : (k 0).val = t.val / 16) (h1 : (k 1).val = u.val) (h2 : (k 2).val = d.val) :
    (iblk m c 1 t : Vec Ideal S1x64x512 .f32) (ix3 0 u d) = predA m c k := by
  obtain ⟨-, -, -, e0, e1, e2, -⟩ := where_ t
  unfold iblk
  rw [View.read_apply]
  show predA m c _ = predA m c k
  refine congrArg (predA m c) (funext fun a => Fin.ext ?_)
  match a with
  | ⟨0, _⟩ => show win0_1.index t (0 : Fin 3) * 1 + 1 * 0 = (k 0).val; omega
  | ⟨1, _⟩ => show win0_1.index t (1 : Fin 3) * 64 + 1 * u.val = (k 1).val; omega
  | ⟨2, _⟩ => show win0_1.index t (2 : Fin 3) * 512 + 1 * d.val = (k 2).val; omega

/-- The encoder weights' block is the whole matrix. -/
theorem wenc_block (c : Dev nD) (t : Fin cfg0.N) (j : Fin 640) (d : Fin 512) :
    (iblk m c 2 t : Vec Ideal S640x512 .f32) (ix2 j d) = wencA m c (ix2 j d) := by
  obtain ⟨-, -, -, -, -, -, e0, e1, -⟩ := where_ t
  unfold iblk
  rw [View.read_apply]
  show wencA m c _ = wencA m c _
  refine congrArg (wencA m c) (funext fun a => Fin.ext ?_)
  match a with
  | ⟨0, _⟩ => show win0_2.index t (0 : Fin 2) * 640 + 1 * j.val = j.val; omega
  | ⟨1, _⟩ => show win0_2.index t (1 : Fin 2) * 512 + 1 * d.val = d.val; omega

/-- The predictor weights' block is the whole matrix. -/
theorem wpred_block (c : Dev nD) (t : Fin cfg0.N) (j : Fin 640) (d : Fin 512) :
    (iblk m c 3 t : Vec Ideal S640x512 .f32) (ix2 j d) = wpredA m c (ix2 j d) := by
  obtain ⟨-, -, -, -, -, -, -, -, e0, e1, -⟩ := where_ t
  unfold iblk
  rw [View.read_apply]
  show wpredA m c _ = wpredA m c _
  refine congrArg (wpredA m c) (funext fun a => Fin.ext ?_)
  match a with
  | ⟨0, _⟩ => show win0_3.index t (0 : Fin 2) * 640 + 1 * j.val = j.val; omega
  | ⟨1, _⟩ => show win0_3.index t (1 : Fin 2) * 512 + 1 * d.val = d.val; omega

/-- The vocabulary weights' block at point `t`: rows `256 v + q`. -/
theorem wout_block (c : Dev nD) (t : Fin cfg0.N) (q : Fin 256) (j : Fin 640) (k : SWout.Idx)
    (h0 : (k 0).val = t.val % 4 * 256 + q.val) (h1 : (k 1).val = j.val) :
    (iblk m c 4 t : Vec Ideal S256x640 .f32) (ix2 q j) = woutA m c k := by
  obtain ⟨-, -, -, -, -, -, -, -, -, -, e0, e1, -⟩ := where_ t
  unfold iblk
  rw [View.read_apply]
  show woutA m c _ = woutA m c k
  refine congrArg (woutA m c) (funext fun a => Fin.ext ?_)
  match a with
  | ⟨0, _⟩ => show win0_4.index t (0 : Fin 2) * 256 + 1 * q.val = (k 0).val; omega
  | ⟨1, _⟩ => show win0_4.index t (1 : Fin 2) * 640 + 1 * j.val = (k 1).val; omega

/-- The bias block at point `t`: entries `256 v + q`. -/
theorem bout_block (c : Dev nD) (t : Fin cfg0.N) (q : Fin 256) (k : SBias.Idx)
    (h0 : (k 0).val = t.val % 4 * 256 + q.val) :
    (iblk m c 5 t : Vec Ideal S256 .f32) (ix1 q) = boutA m c k := by
  obtain ⟨-, -, -, -, -, -, -, -, -, -, -, -, e0, -⟩ := where_ t
  unfold iblk
  rw [View.read_apply]
  show boutA m c _ = boutA m c k
  refine congrArg (boutA m c) (funext fun a => Fin.ext ?_)
  match a with
  | ⟨0, _⟩ => show win0_5.index t (0 : Fin 1) * 256 + 1 * q.val = (k 0).val; omega

/-! ## The joint activations of a batch entry and a frame tile -/

/-- The joint activation depends on its coordinates only through their values. -/
theorem joint_congr (enc : FVec Ideal SEnc .f32) (pred : FVec Ideal SPred .f32) (wenc wpred : FVec Ideal SW .f32)
    {b b' : Fin 8} {t t' : Fin 256} {u u' : Fin 64} (j : Fin 640)
    (hb : b.val = b'.val) (ht : t.val = t'.val) (hu : u.val = u'.val) :
    joint enc pred wenc wpred b t u j = joint enc pred wenc wpred b' t' u' j := by
  obtain rfl := Fin.ext hb; obtain rfl := Fin.ext ht; obtain rfl := Fin.ext hu; rfl

/-- The `4096 × 640` activations of batch entry `b` and frame tile `s`: row `r` is frame `64 s + r / 64` against
    position `r % 64`. -/
def activ (c : Dev nD) (b s : Nat) (hb : b < 8) (hs : s < 4) : Vec Ideal S4096x640 .bf16 := fun i =>
  joint (encA m c) (predA m c) (wencA m c) (wpredA m c) ⟨b, hb⟩
    ⟨s * 64 + (i 0).val / 64, by have := idx2_lt0 i; omega⟩ ⟨(i 0).val % 64, Nat.mod_lt _ (by decide)⟩ (i 1)

theorem activ_congr (c : Dev nD) {b b' s s' : Nat} (hb : b < 8) (hs : s < 4) (hb' : b' < 8) (hs' : s' < 4)
    (eb : b = b') (es : s = s') : activ m c b s hb hs = activ m c b' s' hb' hs' := by
  subst eb; subst es; rfl

/-- Computed from the blocks of a point, the activations are those of the point's batch entry and frame tile. -/
theorem activ_of_blocks (c : Dev nD) (t : Fin cfg0.N) :
    k0_pay5 (F := Ideal) (iblk m c 0 t) (iblk m c 2 t) (iblk m c 1 t) (iblk m c 3 t)
      = activ m c (t.val / 16) (t.val / 4 % 4) (by have := t.isLt; have := nPoints; omega) (by omega) := by
  funext i
  obtain ⟨r, j, rfl⟩ : ∃ (r : Fin 4096) (j : Fin 640), i = ix2 r j := ⟨i 0, i 1, eq_ix2 i⟩
  have hr64 : r.val / 64 < 64 := by have := r.isLt; omega
  refine (comb_apply (iblk m c 0 t) (iblk m c 2 t) (iblk m c 1 t) (iblk m c 3 t)
    ⟨r.val / 64, hr64⟩ ⟨r.val % 64, Nat.mod_lt _ (by decide)⟩ j r (by show r.val = r.val / 64 * 64 + r.val % 64; omega)).trans ?_
  rw [proj_apply (iblk m c 0 t) (iblk m c 2 t) ⟨r.val / 64, hr64⟩ j,
    proj_apply' (iblk m c 1 t) (iblk m c 3 t) ⟨r.val % 64, Nat.mod_lt _ (by decide)⟩ j]
  show Ideal.tanh (_ + _) = Ideal.tanh (_ + _)
  refine congrArg Ideal.tanh (congrArg₂ (· + ·) (Finset.sum_congr rfl fun d _ => ?_) (Finset.sum_congr rfl fun d _ => ?_))
  · exact congrArg₂ (· * ·) (enc_block m c t ⟨r.val / 64, hr64⟩ d _ rfl rfl rfl) (wenc_block m c t j d)
  · exact congrArg₂ (· * ·) (pred_block m c t ⟨r.val % 64, Nat.mod_lt _ (by decide)⟩ d _ rfl rfl rfl) (wpred_block m c t j d)

/-! ## What the scratch and the output block hold after each point -/

/-- AFTER EVERY POINT the scratch holds the activations of the point's batch entry and frame tile. -/
theorem scratch_after (c : Dev nD) : ∀ (n : ℕ) (h : n < cfg0.N),
    (outsAt0 m c n h).2 = activ m c (n / 16) (n / 4 % 4) (by have := nPoints; omega) (by omega)
  | 0, h => by
    rw [outsAt0_A m c ⟨0, h⟩ rfl]
    dsimp only
    exact (scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) scM0_2 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)).trans
      (activ_of_blocks m c ⟨0, h⟩)
  | n + 1, h => by
    by_cases h0 : (n + 1) % 4 = 0
    · rw [outsAt0_A m c ⟨n + 1, h⟩ h0]
      dsimp only
      exact (scratch_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)).trans
        (activ_of_blocks m c ⟨n + 1, h⟩)
    · rw [outsAt0_B m c ⟨n + 1, h⟩ h0]
      dsimp only
      show (outsAt0 m c n _).2 = _
      rw [scratch_after c n (Nat.lt_of_succ_lt h)]
      exact activ_congr m c _ _ _ _ (by omega) (by omega)

/-- AFTER EVERY POINT the output's staging buffer holds the projection of those activations to the point's
    vocabulary tile. -/
theorem out_after (c : Dev nD) (t : Fin cfg0.N) :
    (outsAt0 m c t.val t.isLt).1
      = k0_pay6 (F := Ideal) (activ m c (t.val / 16) (t.val / 4 % 4) (by have := t.isLt; have := nPoints; omega) (by omega))
          (iblk m c 4 t) (iblk m c 5 t) := by
  by_cases h0 : t.val % 4 = 0
  · rw [outsAt0_A m c t h0]
    dsimp only
    rw [out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t), activ_of_blocks m c t]
  · rw [outsAt0_B m c t h0]
    dsimp only
    rw [out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2,
      scratch_after m c (t.val - 1) (Nat.lt_of_le_of_lt (Nat.sub_le _ _) t.isLt)]
    exact congrArg (fun a => k0_pay6 (F := Ideal) a (iblk m c 4 t) (iblk m c 5 t))
      (activ_congr m c _ _ _ _ (by omega) (by omega))

/-- That block, read at `y`, is the logits at the array index `k` the block puts `y` at. -/
theorem out_block (c : Dev nD) (t : Fin cfg0.N) (y : S1x64x64x256.Idx) (k : SOut.Idx)
    (h0 : (k 0).val = t.val / 16) (h1 : (k 1).val = t.val / 4 % 4 * 64 + (y 1).val)
    (h2 : (k 2).val = (y 2).val) (h3 : (k 3).val = t.val % 4 * 256 + (y 3).val) :
    k0_pay6 (F := Ideal) (activ m c (t.val / 16) (t.val / 4 % 4) (by have := t.isLt; have := nPoints; omega) (by omega))
        (iblk m c 4 t) (iblk m c 5 t) y = result m c k := by
  have hy : y = ix4 (0 : Fin 1) (y 1) (y 2) (y 3) := funext fun a => Fin.ext (by
    match a with
    | ⟨0, _⟩ => show (y 0).val = 0; have : (y 0).val < 1 := (y 0).isLt; omega
    | ⟨1, _⟩ => rfl
    | ⟨2, _⟩ => rfl
    | ⟨3, _⟩ => rfl)
  obtain ⟨p, u, v, rfl⟩ : ∃ (p u : Fin 64) (v : Fin 256), y = ix4 (0 : Fin 1) p u v := ⟨y 1, y 2, y 3, hy⟩
  have hpu : p.val * 64 + u.val < 4096 := by have := p.isLt; have := u.isLt; omega
  rw [out_apply _ (iblk m c 4 t) (iblk m c 5 t) p u v ⟨p.val * 64 + u.val, hpu⟩ rfl]
  rw [eq_ix4 k]
  show _ = logitsAt (encA m c) (predA m c) (wencA m c) (wpredA m c) (woutA m c) (boutA m c) (k 0) (k 1) (k 2) (k 3)
  unfold logitsAt
  refine congrArg₂ (· + ·) (Finset.sum_congr rfl fun j _ => ?_) (bout_block m c t v _ h3)
  refine congrArg₂ (· * ·) ?_ (wout_block m c t v j _ h3 rfl)
  show joint _ _ _ _ _ _ _ j = _
  have hu := u.isLt
  exact joint_congr _ _ _ _ j h0.symm
    (by show t.val / 4 % 4 * 64 + (p.val * 64 + u.val) / 64 = (k 1).val; rw [h1]; show _ = _ + p.val; omega)
    (by show (p.val * 64 + u.val) % 64 = (k 2).val; rw [h2]; show _ = u.val; omega)

end Cert.KernelIdeal.JointTiles

end
-- ==== Proof.Logits.lean ====
/-
  The kernel's result array is the logits.

  Every point writes its output block back, and the 128 blocks tile the `8 × 256 × 64 × 1024` result: the index
  `(b, t, u, v)` lies in the block of the point with batch entry `b`, frame tile `t / 64` and vocabulary tile
  `v / 256`, that is point `16 b + 4 (t / 64) + v / 256`. Each block written is the logits' block, so the array after
  the run is the logits of the arrays the region found, which the run leaves unchanged.
-/
import proofs.«141540_j2044404433374_1_alg».proof.Proof.Tiles

noncomputable section

namespace Cert.KernelIdeal.JointRun

open Cert.KernelIdeal Cert.KernelIdeal.Gen Idealize.ShloMosaic Idealize.ShloMosaic.TcCoe Idealize.SL.Sem
open Idealize.ShloMosaic.Pipeline (Dat)
open Idealize.ShloMosaic.ValueIdx Cert.Joint Cert.KernelIdeal.JointTiles

variable (m : (ℓ : Loc nD τ sig) → Buf (Elt Ideal) ℓ) (ρ : Dev nD → PrngReg)

/-- WHAT POINT `t` WRITES BACK is block `t` of the logits. -/
theorem written_back (c : Dev nD) (t : Fin cfg0.N) :
    (dats m 0 c).flushed 6 t = ((cfg0.win 6).blk t).view.read (Elt Ideal) (result m c) := by
  rw [Cert.KernelIdeal.Value.flushed6, out_after]
  obtain ⟨-, -, -, -, -, -, -, -, -, -, -, -, -, e0, e1, e2, e3⟩ := where_ t
  funext y
  rw [View.read_apply]
  show k0_pay6 (F := Ideal) _ (iblk m c 4 t) (iblk m c 5 t) y = result m c _
  refine out_block m c t y _ ?_ ?_ ?_ ?_
  · show win0_6.index t (0 : Fin 4) * 1 + 1 * (y 0).val = t.val / 16
    have : (y 0).val < 1 := (y 0).isLt
    omega
  · show win0_6.index t (1 : Fin 4) * 64 + 1 * (y 1).val = t.val / 4 % 4 * 64 + (y 1).val
    omega
  · show win0_6.index t (2 : Fin 4) * 64 + 1 * (y 2).val = (y 2).val
    omega
  · show win0_6.index t (3 : Fin 4) * 256 + 1 * (y 3).val = t.val % 4 * 256 + (y 3).val
    omega

/-- An index of the result is in point `t`'s block iff each coordinate is in the block's range on its axis. -/
theorem mem_block (t : Fin cfg0.N) (i : S8x256x64x1024.Idx) :
    i ∈ ((cfg0.win 6).blk t).view.set ↔ ∀ a : Fin 4, win0_6.index t a * S1x64x64x256.size a ≤ (i a).val
      ∧ (i a).val < win0_6.index t a * S1x64x64x256.size a + S1x64x64x256.size a := by
  show i ∈ ((View.whole main_v0).slice (win0_6.rect t)).set ↔ _
  rw [View.set_slice_whole, Rect.mem_set_unit]
  exact Iff.rfl

/-- Every index of the result is in the block of the point with its batch entry, frame tile and vocabulary tile. -/
theorem covered (i : S8x256x64x1024.Idx) :
    ∃ t : Fin cfg0.N, (cfg0.win 6).flush t = true ∧ i ∈ ((cfg0.win 6).blk t).view.set := by
  have h0 : (i 0).val < 8 := (i 0).isLt
  have h1 : (i 1).val < 256 := (i 1).isLt
  have h2 : (i 2).val < 64 := (i 2).isLt
  have h3 : (i 3).val < 1024 := (i 3).isLt
  have hN := nPoints
  have ht : (i 0).val * 16 + (i 1).val / 64 * 4 + (i 3).val / 256 < cfg0.N := by omega
  obtain ⟨-, -, -, -, -, -, -, -, -, -, -, -, -, e0, e1, e2, e3⟩ :=
    where_ ⟨(i 0).val * 16 + (i 1).val / 64 * 4 + (i 3).val / 256, ht⟩
  dsimp only at e0 e1 e2 e3
  refine ⟨⟨(i 0).val * 16 + (i 1).val / 64 * 4 + (i 3).val / 256, ht⟩, flush0_6 _, (mem_block _ i).mpr fun a => ?_⟩
  match a with
  | ⟨0, _⟩ =>
    show win0_6.index _ (0 : Fin 4) * 1 ≤ (i 0).val ∧ (i 0).val < win0_6.index _ (0 : Fin 4) * 1 + 1
    omega
  | ⟨1, _⟩ =>
    show win0_6.index _ (1 : Fin 4) * 64 ≤ (i 1).val ∧ (i 1).val < win0_6.index _ (1 : Fin 4) * 64 + 64
    omega
  | ⟨2, _⟩ =>
    show win0_6.index _ (2 : Fin 4) * 64 ≤ (i 2).val ∧ (i 2).val < win0_6.index _ (2 : Fin 4) * 64 + 64
    omega
  | ⟨3, _⟩ =>
    show win0_6.index _ (3 : Fin 4) * 256 ≤ (i 3).val ∧ (i 3).val < win0_6.index _ (3 : Fin 4) * 256 + 256
    omega

/-- THE RESULT ARRAY after the run: the logits. -/
theorem result_array (c : Dev nD) : (dats m 0 c).arrAt 6 cfg0.N = result m c :=
  (dats m 0 c).arrAt_eq_of_cover 6 (result m c) (fun t _ => written_back m c t) covered

/-- The run, read: the result array at the logits of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩)
    (Cert.KernelIdeal.Value.run_blocks m ρ)

end Cert.KernelIdeal.JointRun

end
-- ==== Proof.lean ====
/-
  The joint network: a fused kernel against its plain reference, over the extended reals.

  Both programs compute, for a batch entry `b`, an encoder frame `t`, a predictor position `u` and a vocabulary
  entry `v`,

    logits[b, t, u, v] = (∑ j, tanh (∑ d, enc[b,t,d] · W_enc[j,d] + ∑ d, pred[b,u,d] · W_pred[j,d]) · W_out[v,j]) + b_out[v]

  (Proof/Spec.lean). The reference does it in twelve whole-array operations (Proof/RefLogits.lean reads its last
  stage at an index). The kernel tiles the frames by 64 and the vocabulary by 256 over a grid of 8 · 4 · 4 points,
  computes the joint activations once per (batch entry, frame tile) at the first vocabulary tile and carries them in a
  scratch through the other three (Proof/Pieces.lean: what one run of the body leaves; Proof/Body.lean: its three
  products and the `tanh` stage at coordinates; Proof/Tiles.lean: the scratch after every point, by induction, and
  each point's output block; Proof/Logits.lean: the blocks tile the result). On the extended reals a change of float
  format is the identity and a product's sum has no order, so the two results are equal entry by entry, for all
  inputs: the precondition is never opened. The ideal pass rewrote nothing, so there is nothing to preserve.
-/
import proofs.«141540_j2044404433374_1_alg».proof.Defs
import proofs.«141540_j2044404433374_1_alg».proof.Proof.Gen.Kernel
import proofs.«141540_j2044404433374_1_alg».proof.Proof.Gen.Kernel.Skeleton
import proofs.«141540_j2044404433374_1_alg».proof.Proof.Gen.Kernel.Launch
import proofs.«141540_j2044404433374_1_alg».proof.Proof.Gen.Kernel.Points
import proofs.«141540_j2044404433374_1_alg».proof.Proof.Gen.Kernel.Frame
import proofs.«141540_j2044404433374_1_alg».proof.Proof.Gen.KernelIdeal
import proofs.«141540_j2044404433374_1_alg».proof.Proof.Gen.KernelIdeal.Skeleton
import proofs.«141540_j2044404433374_1_alg».proof.Proof.Gen.KernelIdeal.Launch
import proofs.«141540_j2044404433374_1_alg».proof.Proof.Gen.KernelIdeal.Points
import proofs.«141540_j2044404433374_1_alg».proof.Proof.Gen.KernelIdeal.Frame
import proofs.«141540_j2044404433374_1_alg».proof.Proof.Gen.ReferenceIdeal
import proofs.«141540_j2044404433374_1_alg».proof.Proof.Gen.Pre_finite_inputs
import proofs.«141540_j2044404433374_1_alg».proof.Proof.Gen.KernelIdeal.Value
import proofs.«141540_j2044404433374_1_alg».proof.Proof.Gen.ReferenceIdeal.Run
import proofs.«141540_j2044404433374_1_alg».proof.Proof.Gen.ReferenceIdeal.Read
import proofs.«141540_j2044404433374_1_alg».proof.Proof.RefLogits
import proofs.«141540_j2044404433374_1_alg».proof.Proof.Logits
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both runs end at the logits of the arguments, which agree. -/
theorem algebraic : Cert.algebraic_KernelIdeal_ReferenceIdeal := by
  intro m ρ m' ρ' _ hagree
  refine ⟨fun c => Cert.KernelIdeal.JointTiles.result m c, Cert.KernelIdeal.JointRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v11_eq, a0, a1, a2, a3, a4, a5]
  exact Cert.ReferenceIdeal.RefLogits.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
